-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x32 : Shape := ⟨4, ![32, 512, 512, 32]⟩
abbrev S_ : Shape := ⟨0, ![]⟩

class Facts : Prop where
  bcast_S_S32x512x512x32 : S_.BroadcastsInDim S32x512x512x32 (![] : Fin 0 → Fin S32x512x512x32.rank)
  reducesTo_S32x512x512x32_S_d0_1_2_3 : S32x512x512x32.ReducesTo [0, 1, 2, 3] S_
  h_S_ : 0 < S_.numel

variable [Facts]

def fn {F : FTy → Type} [FloatOps F] (main_arg0 : FVec F S32x512x512x32 .f32) : IVec S_ 1 :=
  let main_v0 : FVec F S32x512x512x32 .f32 := Host.absf main_arg0
  let main_cst : FVec F S_ .f32 := constant S_ .f32 0x7F800000#32
  let main_v1 : FVec F S32x512x512x32 .f32 := broadcastInDim S32x512x512x32 ![] bcast_S_S32x512x512x32 main_cst
  let main_v2 : IVec S32x512x512x32 1 := cmpf .olt main_v0 main_v1
  let main_c : IVec S_ 1 := constantI S_ 1 1#1
  let main_v3 : IVec S_ 1 := (fun x v => Host.reduce IntOp.andi x v reducesTo_S32x512x512x32_S_d0_1_2_3 h_S_) main_v2 main_c
  main_v3
-- ==== Kernel.lean ====
abbrev S32x512x512x32 : Shape := ⟨4, ![32, 512, 512, 32]⟩
abbrev S32x512x32x512 : Shape := ⟨4, ![32, 512, 32, 512]⟩
abbrev S256x256 : Shape := ⟨2, ![256, 256]⟩
abbrev S_ : Shape := ⟨0, ![]⟩
abbrev S256x2x256 : Shape := ⟨3, ![256, 2, 256]⟩
abbrev S512x256 : Shape := ⟨2, ![512, 256]⟩
abbrev S32x256x32x256 : Shape := ⟨4, ![32, 256, 32, 256]⟩
abbrev S1x256x32x512 : Shape := ⟨4, ![1, 256, 32, 512]⟩
abbrev S1x128x32x256 : Shape := ⟨4, ![1, 128, 32, 256]⟩
abbrev S256x32x512 : Shape := ⟨3, ![256, 32, 512]⟩
abbrev S128x2x32x512 : Shape := ⟨4, ![128, 2, 32, 512]⟩
abbrev S128x1x32x512 : Shape := ⟨4, ![128, 1, 32, 512]⟩
abbrev S128x32x512 : Shape := ⟨3, ![128, 32, 512]⟩
abbrev S4096x512 : Shape := ⟨2, ![4096, 512]⟩
abbrev S4096x256 : Shape := ⟨2, ![4096, 256]⟩
abbrev S128x32x256 : Shape := ⟨3, ![128, 32, 256]⟩
abbrev S32x256x256x32 : Shape := ⟨4, ![32, 256, 256, 32]⟩

abbrev nBuf : Space → Nat
  | .hbm => 16
  | .vmem => 5
  | .smem => 0
  | _ => 0

abbrev bufTy : (tb : Table) → Fin (tcTables nBuf tb) → BufTy
  | .hbm, ⟨0, _⟩ => ⟨S32x512x512x32, .f32⟩
  | .hbm, ⟨1, _⟩ => ⟨S32x512x32x512, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x2x256, .f32⟩
  | .hbm, ⟨13, _⟩ => ⟨S512x256, .f32⟩
  | .hbm, ⟨14, _⟩ => ⟨S32x256x32x256, .f32⟩
  | .hbm, ⟨15, _⟩ => ⟨S32x256x256x32, .f32⟩
  | .local _ .vmem, ⟨0, _⟩ => ⟨S1x256x32x512, .f32⟩
  | .local _ .vmem, ⟨1, _⟩ => ⟨S1x256x32x512, .f32⟩
  | .local _ .vmem, ⟨2, _⟩ => ⟨S512x256, .f32⟩
  | .local _ .vmem, ⟨3, _⟩ => ⟨S1x128x32x256, .f32⟩
  | .local _ .vmem, ⟨4, _⟩ => ⟨S1x128x32x256, .f32⟩
  | _, _ => ⟨S32x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S32x512x512x32_S32x512x32x512_0_1_3_2 : S32x512x512x32.Transposes [0, 1, 3, 2] S32x512x32x512
  bcast_S_S256x256 : S_.BroadcastsInDim S256x256 (![] : Fin 0 → Fin S256x256.rank)
  bcast_S256x256_S256x2x256_0_2 : S256x256.BroadcastsInDim S256x2x256 (![0, 2] : Fin 2 → Fin S256x2x256.rank)
  shapeCasts_S256x2x256_S512x256 : S256x2x256.ShapeCasts S512x256
  inb_S1x256x32x512_S1x256x32x512_0_0_0_0 : ∀ a, (![0, 0, 0, 0] : Fin 4 → Nat) a + S1x256x32x512.size a ≤ S1x256x32x512.size a
  h_S1x256x32x512 : 0 < S1x256x32x512.numel
  shapeCasts_S1x256x32x512_S256x32x512 : S1x256x32x512.ShapeCasts S256x32x512
  shapeCasts_S256x32x512_S128x2x32x512 : S256x32x512.ShapeCasts S128x2x32x512
  slices_S128x2x32x512_o0_0_0_0_S128x1x32x512 : S128x2x32x512.Slices ![0, 0, 0, 0] S128x1x32x512
  shapeCasts_S128x1x32x512_S128x32x512 : S128x1x32x512.ShapeCasts S128x32x512
  slices_S128x2x32x512_o0_1_0_0_S128x1x32x512 : S128x2x32x512.Slices ![0, 1, 0, 0] S128x1x32x512
  shapeCasts_S128x32x512_S4096x512 : S128x32x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S4096x256_S128x32x256 : S4096x256.ShapeCasts S128x32x256
  inb_S1x128x32x256_S1x128x32x256_0_0_0_0 : ∀ a, (![0, 0, 0, 0] : Fin 4 → Nat) a + S1x128x32x256.size a ≤ S1x128x32x256.size a
  h_S1x128x32x256 : 0 < S1x128x32x256.numel
  shapeCasts_S1x128x32x256_S128x32x256 : S1x128x32x256.ShapeCasts S128x32x256
  shapeCasts_S128x32x256_S1x128x32x256 : S128x32x256.ShapeCasts S1x128x32x256
  transposes_S32x256x32x256_S32x256x256x32_0_1_3_2 : S32x256x32x256.Transposes [0, 1, 3, 2] S32x256x256x32
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x512.size a ≤ S32x512x32x512.size a
  hwx0_0 : ∀ i : grid0.Coords, EltTy.bits .f32 = 32 ∨ (Rect.block (s := S32x512x32x512) S1x256x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32x256.size a ≤ S32x256x32x256.size a
  hwx0_2 : ∀ i : grid0.Coords, EltTy.bits .f32 = 32 ∨ (Rect.block (s := S32x256x32x256) S1x128x32x256.size (cc0_transform_2 i) (hinb0_2 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_v0) S1x256x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x32 : Shape := ⟨4, ![32, 512, 512, 32]⟩
abbrev S32x256x2x256x2x32 : Shape := ⟨6, ![32, 256, 2, 256, 2, 32]⟩
abbrev S_ : Shape := ⟨0, ![]⟩
abbrev S32x256x256x32 : Shape := ⟨4, ![32, 256, 256, 32]⟩

abbrev nBuf : Space → Nat
  | .hbm => 7
  | .vmem => 0
  | .smem => 0
  | _ => 0

abbrev bufTy : (tb : Table) → Fin (tcTables nBuf tb) → BufTy
  | .hbm, ⟨0, _⟩ => ⟨S32x512x512x32, .f32⟩
  | .hbm, ⟨1, _⟩ => ⟨S32x256x2x256x2x32, .f32⟩
  | .hbm, ⟨2, _⟩ => ⟨S_, .f32⟩
  | .hbm, ⟨3, _⟩ => ⟨S32x256x256x32, .f32⟩
  | .hbm, ⟨4, _⟩ => ⟨S_, .f32⟩
  | .hbm, ⟨5, _⟩ => ⟨S32x256x256x32, .f32⟩
  | .hbm, ⟨6, _⟩ => ⟨S32x256x256x32, .f32⟩
  | _, _ => ⟨S32x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S32x512x512x32_S32x256x2x256x2x32 : S32x512x512x32.ShapeCasts S32x256x2x256x2x32
  reducesTo_S32x256x2x256x2x32_S32x256x256x32_d2_4 : S32x256x2x256x2x32.ReducesTo [2, 4] S32x256x256x32
  h_S_ : 0 < S_.numel
  bcast_S_S32x256x256x32 : S_.BroadcastsInDim S32x256x256x32 (![] : Fin 0 → Fin S32x256x256x32.rank)

variable [Facts₀]

class Facts : Prop extends Facts₀ where

variable [Facts]
-- ==== Proof.Pool.lean ====
/-
  Haar low-pass pooling of a [32, 512, 512, 32] array over its two middle axes, in the two arrangements this
  certificate's programs compute it, and the law that joins them.

  For an output index (b, i, j, c) the 2 × 2 patch is x[b, 2i + r, 2j + q, c], r q ∈ {0, 1}.
  * The reference adds the four patch entries to zero and multiplies the sum by one half.
  * The kernel first adds the two rows, s(w) = x[b, 2i, w, c] + x[b, 2i + 1, w, c] for every column w of the 512, and
    then contracts the columns against the pairing matrix P(w, j) = [w / 2 = j] · ½: only the columns 2j and 2j + 1
    meet a nonzero entry, so the contraction is s(2j) · ½ + s(2j + 1) · ½.
  On finite entries the two agree: (a + c) · ½ + (b + d) · ½ = (a + b + c + d) · ½ is distributivity over the reals
  (on the extended reals distributivity can fail at infinities, hence the finiteness hypothesis).
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The input array's shape, (batch, row, column, channel). -/
abbrev SIn : Shape := ⟨4, ![32, 512, 512, 32]⟩
/-- The pooled array's shape. -/
abbrev SOut : Shape := ⟨4, ![32, 256, 256, 32]⟩

/-- Row (or column) `2 i + r` of the 512, for a pooled coordinate `i` and a position `r` inside the pair. -/
def twice (i : Fin 256) (r : Fin 2) : Fin 512 := ⟨2 * i.val + r.val, by omega⟩

/-- The scale both programs multiply by: the binary32 pattern of one half, read as an extended real. -/
abbrev half : EReal := Ideal.ofBits .f32 0x3F000000#32

/-- That pattern denotes the real number 1/2. -/
theorem half_eq : half = ((1 / 2 : ℝ) : EReal) := by
  simp [half, Ideal.ofBits, Ideal.ieee, -EReal.coe_mul]; norm_num

/-- Entry (r, q) of the 2 × 2 patch under output index `i`. -/
def patch (x : SIn.Idx → EReal) (i : SOut.Idx) (r q : Fin 2) : EReal :=
  x (ix4 (i 0) (twice (i 1) r) (twice (i 2) q) (i 3))

/-- The reference's arrangement: zero plus the sum of the patch, times one half. -/
def refPool (x : SIn.Idx → EReal) : SOut.Idx → EReal :=
  fun i => (0 + ∑ r : Fin 2, ∑ q : Fin 2, patch x i r q) * half

/-- The pairing matrix: column `w` of the 512 contributes one half to pooled column `w / 2` and nothing elsewhere. -/
def pairW (w : Fin 512) (j : Fin 256) : EReal := (if w.val / 2 = j.val then (1 : EReal) else 0) * half

/-- The kernel's arrangement: the two rows added, then contracted over all 512 columns against the pairing matrix. -/
def kerPool (x : SIn.Idx → EReal) : SOut.Idx → EReal :=
  fun i => ∑ w : Fin 512, (x (ix4 (i 0) (twice (i 1) 0) w (i 3)) + x (ix4 (i 0) (twice (i 1) 1) w (i 3))) * pairW w (i 2)

/-- Contracting any row `s` against column `j` of the pairing matrix leaves the two entries `2j`, `2j + 1`, each halved:
    every other column meets a zero entry, and `y · 0 = 0` for every extended real `y`. -/
theorem sum_pairW (s : Fin 512 → EReal) (j : Fin 256) :
    ∑ w : Fin 512, s w * pairW w j = s (twice j 0) * half + s (twice j 1) * half := by
  have hne : twice j 0 ≠ twice j 1 := by
    intro h; have := congrArg Fin.val h; simp [twice] at this
  rw [Fintype.sum_eq_add (twice j 0) (twice j 1) hne]
  · have h0 : (twice j 0).val / 2 = j.val := by simp [twice]
    have h1 : (twice j 1).val / 2 = j.val := by simp [twice]; omega
    simp only [pairW, h0, h1, if_true, one_mul]
  · intro w hw
    have hw0 : w.val ≠ 2 * j.val + 0 := fun h => hw.1 (Fin.ext h)
    have hw1 : w.val ≠ 2 * j.val + 1 := fun h => hw.2 (Fin.ext h)
    have : ¬ w.val / 2 = j.val := by omega
    simp only [pairW, this, if_false, zero_mul, mul_zero]

/-- THE LAW: on an array of finite entries the kernel's arrangement is the reference's. -/
theorem kerPool_eq_refPool (x : SIn.Idx → EReal) (hfin : ∀ k, ∃ r : ℝ, x k = (r : EReal)) : kerPool x = refPool x := by
  funext i
  unfold kerPool refPool
  rw [sum_pairW (fun w => x (ix4 (i 0) (twice (i 1) 0) w (i 3)) + x (ix4 (i 0) (twice (i 1) 1) w (i 3))) (i 2)]
  simp only [Fin.sum_univ_two, patch]
  obtain ⟨a, ha⟩ := hfin (ix4 (i 0) (twice (i 1) 0) (twice (i 2) 0) (i 3))
  obtain ⟨b, hb⟩ := hfin (ix4 (i 0) (twice (i 1) 0) (twice (i 2) 1) (i 3))
  obtain ⟨c, hc⟩ := hfin (ix4 (i 0) (twice (i 1) 1) (twice (i 2) 0) (i 3))
  obtain ⟨d, hd⟩ := hfin (ix4 (i 0) (twice (i 1) 1) (twice (i 2) 1) (i 3))
  rw [ha, hb, hc, hd, half_eq, zero_add]
  simp only [← EReal.coe_add, ← EReal.coe_mul]
  congr 1
  ring

end Cert.Pool

end
-- ==== Proof.Finite.lean ====
/-
  The precondition, read at the ideal values, says every entry of the argument is a real number: the predicate is
  the conjunction over all entries of |x| < +∞, and an extended real whose absolute value is below +∞ is neither
  infinity.
-/
import proofs.«165401_g9088150799036_feedfinal_321_13_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

/-- Where the finiteness predicate holds of an array, every entry of the array is a real number. -/
theorem entries_real [Cert.Pre_finite_inputs.Facts] (x : FVec Ideal S32x512x512x32 .f32)
    (h : Cert.Pre_finite_inputs.fn (F := Ideal) x = fun _ => 1#1) (k : S32x512x512x32.Idx) :
    ∃ r : ℝ, x k = (r : EReal) := by
  -- The conjunction over all entries is 1, so each entry's comparison |x k| < +∞ is 1.
  haveI : Subsingleton S_.Idx := ⟨fun a b => funext fun d => d.elim0⟩
  have h0 := congrFun h ValueIdx.ix0
  dsimp only [Cert.Pre_finite_inputs.fn] at h0
  have hk := Host.reduce_andi_all _ _ _ _ _ h0 k
  -- The compared pattern denotes +∞, and |x k| is max (x k) (-x k).
  have htop : Ideal.ofBits .f32 2139095040#32 = (⊤ : EReal) := by simp [Ideal.ofBits, Ideal.ieee]
  have hc : Ideal.cmp .olt (max (x k) (-(x k))) (Ideal.ofBits .f32 2139095040#32) = 1#1 := hk
  rw [htop] at hc
  have hlt : max (x k) (-(x k)) < (⊤ : EReal) := by
    by_contra hn
    simp [Ideal.cmp, hn] at hc
  -- Neither infinity has absolute value below +∞, so x k is a real number.
  have hnt : x k ≠ ⊤ := by
    intro e; rw [e] at hlt; simp at hlt
  have hnb : x k ≠ ⊥ := by
    intro e; rw [e] at hlt; simp at hlt
  exact ⟨(x k).toReal, (EReal.coe_toReal hnt hnb).symm⟩

end Cert.Pre_finite_inputs.Finite

end
-- ==== Proof.RefPool.lean ====
/-
  The reference at the ideal values is the pooled array in the reference's arrangement: the reshape to
  [32, 256, 2, 256, 2, 32] splits row 2i + r into (i, r) and column 2j + q into (j, q), the sum over the two new
  axes is the sum of the 2 × 2 patch added to zero, and the product with the broadcast constant halves it.
-/
import proofs.«165401_g9088150799036_feedfinal_321_13_alg».proof.Proof.Gen.ReferenceIdeal.Read
import proofs.«165401_g9088150799036_feedfinal_321_13_alg».proof.Proof.Pool
import Idealize.ShloMosaic.Lib.ValueIdx
import Idealize.ShloMosaic.Lib.ValueIdxRank6
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Dropping axes 2 and 4 of a rank-6 index keeps coordinates 0, 1, 3, 5, in that order: a rank-6 index drops to the
    rank-4 index `i` exactly when those four coordinates are `i`'s. -/
private theorem drop_eq_iff (h : S32x256x2x256x2x32.ReducesTo [2, 4] S32x256x256x32)
    (k : S32x256x2x256x2x32.Idx) (i : S32x256x256x32.Idx) :
    h.drop k = i ↔ ((k 0).val = (i 0).val ∧ (k 1).val = (i 1).val ∧ (k 3).val = (i 2).val ∧ (k 5).val = (i 3).val) := by
  have h0 : (h.drop k 0 : ℕ) = k 0 := h.drop_apply_val_of_eq k 0 0
  have h1 : (h.drop k 1 : ℕ) = k 1 := h.drop_apply_val_of_eq k 1 1
  have h2 : (h.drop k 2 : ℕ) = k 3 := h.drop_apply_val_of_eq k 2 3
  have h3 : (h.drop k 3 : ℕ) = k 5 := h.drop_apply_val_of_eq k 3 5
  constructor
  · intro e
    subst e
    exact ⟨h0.symm, h1.symm, h2.symm, h3.symm⟩
  · rintro ⟨e0, e1, e2, e3⟩
    funext b
    apply Fin.ext
    match b with
    | ⟨0, _⟩ => exact h0.trans e0
    | ⟨1, _⟩ => exact h1.trans e1
    | ⟨2, _⟩ => exact h2.trans e2
    | ⟨3, _⟩ => exact h3.trans e3

/-- The sum over the rank-6 indices that drop to `i` is the double sum over the two dropped coordinates, the kept
    coordinates being `i`'s: the indices that drop to `i` are exactly (i₀, i₁, r, i₂, q, i₃) for r, q ∈ {0, 1}. -/
private theorem sum_drop (h : S32x256x2x256x2x32.ReducesTo [2, 4] S32x256x256x32)
    (f : S32x256x2x256x2x32.Idx → EReal) (i : S32x256x256x32.Idx) :
    ∑ k ∈ Finset.univ.filter (fun k => h.drop k = i), f k
      = ∑ r : Fin 2, ∑ q : Fin 2, f (ix6 (i 0) (i 1) r (i 2) q (i 3)) := by
  rw [← Fintype.sum_prod_type (f := fun p : Fin 2 × Fin 2 => f (ix6 (i 0) (i 1) p.1 (i 2) p.2 (i 3)))]
  have hinv : ∀ k ∈ Finset.univ.filter (fun k => h.drop k = i), ix6 (i 0) (i 1) (k 2) (i 2) (k 4) (i 3) = k := by
    intro k hk
    rw [Finset.mem_filter] at hk
    obtain ⟨e0, e1, e2, e3⟩ := (drop_eq_iff h k i).1 hk.2
    funext a
    match a with
    | ⟨0, _⟩ => exact Fin.ext e0.symm
    | ⟨1, _⟩ => exact Fin.ext e1.symm
    | ⟨2, _⟩ => rfl
    | ⟨3, _⟩ => exact Fin.ext e2.symm
    | ⟨4, _⟩ => rfl
    | ⟨5, _⟩ => exact Fin.ext e3.symm
  refine Finset.sum_nbij' (fun k => (k 2, k 4)) (fun p => ix6 (i 0) (i 1) p.1 (i 2) p.2 (i 3)) ?_ ?_ hinv ?_ ?_
  · intro k _; exact Finset.mem_univ _
  · intro p _
    rw [Finset.mem_filter]
    exact ⟨Finset.mem_univ _, (drop_eq_iff h _ i).2 ⟨rfl, rfl, rfl, rfl⟩⟩
  · intro p _; rfl
  · intro k hk; exact congrArg f (hinv k hk).symm

/-- The reshape read at the rank-6 index (b, i, r, j, q, c) is the input at (b, 2i + r, 2j + q, c): the two indices
    have the same row-major position. -/
private theorem val_main_v0_ix6 (x : FVec Ideal S32x512x512x32 .f32) (b : Fin 32) (i : Fin 256) (r : Fin 2)
    (j : Fin 256) (q : Fin 2) (c : Fin 32) :
    val_main_v0 (F := Ideal) x (ix6 b i r j q c) = x (ix4 b (Cert.Pool.twice i r) (Cert.Pool.twice j q) c) := by
  unfold val_main_v0
  refine shapeCast_apply _ _ _ _ ?_
  rw [Shape.rowMajor_val_four, Shape.rowMajor_val_six]
  show ((b.val * 512 + (2 * i.val + r.val)) * 512 + (2 * j.val + q.val)) * 32 + c.val
    = ((((b.val * 256 + i.val) * 2 + r.val) * 256 + j.val) * 2 + q.val) * 32 + c.val
  have := b.isLt; have := i.isLt; have := r.isLt; have := j.isLt; have := q.isLt; have := c.isLt
  omega

/-- The reference's last stage, at the ideal values, is `Cert.Pool.refPool` of its argument. -/
theorem val_main_v3_eq_refPool (x : FVec Ideal S32x512x512x32 .f32) :
    Cert.ReferenceIdeal.Read.val_main_v3 (F := Ideal) x = Cert.Pool.refPool x := by
  funext i
  rw [val_main_v3_apply, val_main_v2_apply, val_main_cst_0_apply, Ideal.mulf_def]
  unfold val_main_v1
  rw [hostReduceAdd_apply, val_main_cst_apply]
  unfold Ideal.hostReduceAdd
  rw [sum_drop]
  rw [show (FloatOps.ofBits (F := Ideal) .f32 0x00000000#32 : EReal) = 0 from Ideal.ofBits_zero_f32]
  unfold Cert.Pool.refPool
  refine congrArg₂ (· * ·) (congrArg (0 + ·) ?_) rfl
  exact Finset.sum_congr rfl fun r _ => Finset.sum_congr rfl fun q _ =>
    val_main_v0_ix6 x (i 0) (i 1) r (i 2) q (i 3)

end Cert.ReferenceIdeal.RefValue

end
-- ==== Proof.Payload.lean ====
/-
  The kernel body's one stored value, read at an index. The body loads a [1, 256, 32, 512] block (rows, channels,
  columns) and the [512, 256] pairing matrix; it regroups the 256 rows as 128 pairs, adds the two rows of each pair,
  lays the 128 × 32 (pair, channel) rows out as the 4096 rows of a matrix, and multiplies that matrix by the pairing
  matrix into a zero accumulator. So entry (0, i, ch, j) of what it stores is the sum over the 512 columns w of
  (block[0, 2i, ch, w] + block[0, 2i + 1, ch, w]) · matrix[w, j].
-/
import proofs.«165401_g9088150799036_feedfinal_321_13_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product at an index -/

theorem lhs_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl

theorem lhs_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q

theorem rhs_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q

theorem rhs_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- A [4096, 512] by [512, 256] product into the zero accumulator, at (a, b): the sum over the 512 contracted
    coordinates of the products of the entries. -/
theorem matmul_zero_apply (A : FVec Ideal S4096x512 .f32) (B : FVec Ideal S512x256 .f32) (a : Fin 4096) (b : Fin 256) :
    matmul dot_S4096x512_S512x256_S4096x256_1_0_0_1_n_n none A B (constant S4096x256 .f32 0x00000000#32) (ix2 a b)
      = ∑ w : Fin 512, A (ix2 a w) * B (ix2 w b) := by
  show FloatOps.matmul _ none A B _ (ix2 a b) = _
  rw [Ideal.matmul_constant_zero_apply,
    ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 a b)
      ((contrEquiv1 dot_S4096x512_S512x256_S4096x256_1_0_0_1_n_n 512 rfl rfl).symm k) = ix2 a k :=
    funext fun ax => Fin.ext (by
      match ax with
      | ⟨0, _⟩ => exact lhs_0 _ _
      | ⟨1, _⟩ => exact (lhs_1 _ _).trans hk)
  have er : dot_S4096x512_S512x256_S4096x256_1_0_0_1_n_n.rhsIdx (ix2 a b)
      ((contrEquiv1 dot_S4096x512_S512x256_S4096x256_1_0_0_1_n_n 512 rfl rfl).symm k) = ix2 k b :=
    funext fun ax => Fin.ext (by
      match ax with
      | ⟨0, _⟩ => exact (rhs_0 _ _).trans hk
      | ⟨1, _⟩ => exact rhs_1 _ _)
  rw [el, er]

/-! ## The row pairs -/

/-- Row `2 i + r` of the block's 256, for pair `i` and position `r`. -/
def rowOf (i : Fin 128) (r : Fin 2) : Fin 256 := ⟨2 * i.val + r.val, by omega⟩

/-- The block with its leading unit axis dropped and its rows regrouped in pairs, at (pair i, position r, channel, column). -/
theorem pairs_apply (x0 : Vec Ideal S1x256x32x512 .f32) (i : Fin 128) (r : Fin 2) (ch : Fin 32) (w : Fin 512) :
    shapeCast S128x2x32x512 (shapeCast S256x32x512 x0 Facts₀.shapeCasts_S1x256x32x512_S256x32x512)
        Facts₀.shapeCasts_S256x32x512_S128x2x32x512 (ix4 i r ch w)
      = x0 (ix4 (0 : Fin 1) (rowOf i r) ch w) := by
  refine (shapeCast_apply _ _ (ix4 i r ch w) (ix3 (rowOf i r) ch w) ?_).trans ?_
  · rw [Shape.rowMajor_val_three, Shape.rowMajor_val_four]
    show ((2 * i.val + r.val) * 32 + ch.val) * 512 + w.val = (((i.val * 2 + r.val) * 32 + ch.val) * 512 + w.val)
    ring
  · exact shapeCast_1abc_abc_apply x0 _ (rowOf i r) ch w

/-- Position `r` of every pair, as a [128, 32, 512] array: the slice at offset `r` on the pair axis, its unit axis dropped. -/
theorem half_apply (v2 : FVec Ideal S128x2x32x512 .f32) (r : Fin 2) (hs : S128x2x32x512.Slices ![0, r.val, 0, 0] S128x1x32x512)
    (i : Fin 128) (ch : Fin 32) (w : Fin 512) :
    shapeCast S128x32x512 (extractStridedSlice S128x1x32x512 ![0, r.val, 0, 0] v2 hs) Facts₀.shapeCasts_S128x1x32x512_S128x32x512 (ix3 i ch w)
      = v2 (ix4 i r ch w) := by
  refine (shapeCast_apply _ _ (ix3 i ch w) (ix4 i (0 : Fin 1) ch w) ?_).trans ?_
  · rw [Shape.rowMajor_val_three, Shape.rowMajor_val_four]
    show ((i.val * 1 + 0) * 32 + ch.val) * 512 + w.val = (i.val * 32 + ch.val) * 512 + w.val
    ring
  · refine extractStridedSlice_apply _ _ hs _ (ix4 i r ch w) fun a => ?_
    match a with
    | ⟨0, _⟩ => show i.val = 0 + i.val; omega
    | ⟨1, _⟩ => show r.val = r.val + 0; omega
    | ⟨2, _⟩ => show ch.val = 0 + ch.val; omega
    | ⟨3, _⟩ => show w.val = 0 + w.val; omega

/-! ## The payload -/

/-- THE BODY'S STORED VALUE at (0, i, ch, j). -/
theorem pay_apply (x0 : Vec Ideal S1x256x32x512 .f32) (x1 : Vec Ideal S512x256 .f32) (i : Fin 128) (ch : Fin 32) (j : Fin 256) :
    k0_pay1 x0 x1 (ix4 (0 : Fin 1) i ch j)
      = ∑ w : Fin 512, (x0 (ix4 (0 : Fin 1) (rowOf i 0) ch w) + x0 (ix4 (0 : Fin 1) (rowOf i 1) ch w)) * x1 (ix2 w j) := by
  unfold k0_pay1
  refine (shapeCast_abc_1abc_apply _ _ (0 : Fin 1) i ch j).trans ?_
  refine (shapeCast_apply _ _ (ix3 i ch j) (ix2 (⟨i.val * 32 + ch.val, by omega⟩ : Fin 4096) j) ?_).trans ?_
  · rw [Shape.rowMajor_val_two, Shape.rowMajor_val_three]
    show (i.val * 32 + ch.val) * 256 + j.val = (i.val * 32 + ch.val) * 256 + j.val
    rfl
  rw [matmul_zero_apply]
  refine Finset.sum_congr rfl fun w _ => ?_
  rw [shapeCast_self]
  congr 1
  refine (shapeCast_apply _ _ (ix2 (⟨i.val * 32 + ch.val, by omega⟩ : Fin 4096) w) (ix3 i ch w) ?_).trans ?_
  · rw [Shape.rowMajor_val_two, Shape.rowMajor_val_three]
    show (i.val * 32 + ch.val) * 512 + w.val = (i.val * 32 + ch.val) * 512 + w.val
    rfl
  rw [addf_apply]
  have h0 := half_apply (shapeCast S128x2x32x512 (shapeCast S256x32x512 x0 Facts₀.shapeCasts_S1x256x32x512_S256x32x512)
        Facts₀.shapeCasts_S256x32x512_S128x2x32x512) 0 Facts₀.slices_S128x2x32x512_o0_0_0_0_S128x1x32x512 i ch w
  have h1 := half_apply (shapeCast S128x2x32x512 (shapeCast S256x32x512 x0 Facts₀.shapeCasts_S1x256x32x512_S256x32x512)
        Facts₀.shapeCasts_S256x32x512_S128x2x32x512) 1 Facts₀.slices_S128x2x32x512_o0_1_0_0_S128x1x32x512 i ch w
  rw [pairs_apply] at h0 h1
  exact congrArg₂ (· + ·) h0 h1

end Cert.KernelIdeal.Body

end
-- ==== Proof.Blocks.lean ====
/-
  From the grid's blocks to the whole array. Grid point (b, h) reads rows 256 h … 256 h + 255 of batch b of the
  transposed argument and the whole pairing matrix, and writes pair-rows 128 h … 128 h + 127 of batch b of the output.
  What it writes is the block, at that place, of ONE function of the two operand arrays: entry (b, i, ch, j) is the
  sum over the columns w of (xt[b, 2i, ch, w] + xt[b, 2i + 1, ch, w]) · P[w, j]. The 64 blocks tile the output array,
  so after the run the array is that function.
-/
import proofs.«165401_g9088150799036_feedfinal_321_13_alg».proof.Proof.Gen.KernelIdeal.Frame
import proofs.«165401_g9088150799036_feedfinal_321_13_alg».proof.Proof.Payload
import proofs.«165401_g9088150799036_feedfinal_321_13_alg».proof.Proof.Pool
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open Cert.Pool (twice)

variable (m : (ℓ : Loc nD τ sig) → Buf (Elt Ideal) ℓ)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The output array as one function of the transposed argument `xt` and the pairing matrix `P`. -/
def G (xt : S32x512x32x512.Idx → EReal) (P : S512x256.Idx → EReal) : S32x256x32x256.Idx → EReal :=
  fun i => ∑ w : Fin 512, (xt (ix4 (i 0) (twice (i 1) 0) (i 2) w) + xt (ix4 (i 0) (twice (i 1) 1) (i 2) w)) * P (ix2 w (i 3))

/-- The body's stored value at a block index `y` is `G` at an array index `I`, once the two loaded blocks are the
    arrays read where `I` says. -/
theorem point_eq (xb : Vec Ideal S1x256x32x512 .f32) (pb : Vec Ideal S512x256 .f32)
    (xt : S32x512x32x512.Idx → EReal) (P : S512x256.Idx → EReal) (y : S1x128x32x256.Idx) (I : S32x256x32x256.Idx)
    (hx : ∀ (r : Fin 2) (w : Fin 512), xb (ix4 (0 : Fin 1) (rowOf (y 1) r) (y 2) w) = xt (ix4 (I 0) (twice (I 1) r) (I 2) w))
    (hp : ∀ w : Fin 512, pb (ix2 w (y 3)) = P (ix2 w (I 3))) :
    k0_pay1 xb pb y = G xt P I := by
  obtain ⟨u, a, b, d, rfl⟩ : ∃ (u : Fin 1) (a : Fin 128) (b : Fin 32) (d : Fin 256), y = ix4 u a b d :=
    ⟨y 0, y 1, y 2, y 3, eq_ix4 y⟩
  have hu : u = 0 := Subsingleton.elim _ _
  subst hu
  rw [pay_apply]
  unfold G
  exact Finset.sum_congr rfl fun w _ => congrArg₂ (· * ·) (congrArg₂ (· + ·) (hx 0 w) (hx 1 w)) (hp w)

/-- The printed index maps over the 64 grid points: the input block moves with the output block on the batch and
    row-block axes, every other block index is zero. -/
theorem idx_facts : ∀ t : Fin cfg0.N, win0_0.index t (0 : Fin 4) = win0_2.index t (0 : Fin 4)
    ∧ win0_0.index t (1 : Fin 4) = win0_2.index t (1 : Fin 4)
    ∧ win0_0.index t (2 : Fin 4) = 0 ∧ win0_0.index t (3 : Fin 4) = 0
    ∧ win0_1.index t (0 : Fin 2) = 0 ∧ win0_1.index t (1 : Fin 2) = 0
    ∧ win0_2.index t (2 : Fin 4) = 0 ∧ win0_2.index t (3 : Fin 4) = 0
    ∧ win0_2.index t (0 : Fin 4) < 32 ∧ win0_2.index t (1 : Fin 4) < 2 :=
  (by decide +kernel : ∀ t : Fin grid0.N, _)

/-- Every (batch, row-block) pair is some point's. -/
theorem idx_onto : ∀ (q0 : Fin 32) (q1 : Fin 2), ∃ t : Fin cfg0.N, win0_2.index t = ![q0.val, q1.val, 0, 0] :=
  (by decide +kernel : ∀ (q0 : Fin 32) (q1 : Fin 2), ∃ t : Fin grid0.N, win0_2.index t = ![q0.val, q1.val, 0, 0])

/-- WHAT POINT `t` WRITES BACK is block `t` of `G` of the operand arrays as the region finds them. -/
theorem flushed_eq (c : Dev nD) (t : Fin cfg0.N) :
    (dats m 0 c).flushed 2 t = ((cfg0.win 2).blk t).view.read (Elt Ideal) (G (V m c main_v0) (V m c main_v10)) := by
  show (cfg0.win 2).cut (grid0.coords t) ((dats m 0 c).after 2 t) = _
  rw [after0_2]
  unfold out0_2
  rw [View.canon_unit_zero hz4]
  simp only [View.ld_unit_zero (S := S1x256x32x512) hz4, View.ld_unit_zero (S := S512x256) hz2]
  obtain ⟨e0, e1, e2, e3, e4, e5, e6, e7, e8, e9⟩ := idx_facts t
  funext y
  refine point_eq (iblk m c 0 t) (iblk m c 1 t) (V m c main_v0) (V m c main_v10) y (((cfg0.win 2).blk t).view.emb y) ?_ ?_
  · intro r w
    show V m c main_v0 (((cfg0.win 0).blk t).view.emb (ix4 (0 : Fin 1) (rowOf (y 1) r) (y 2) w)) = V m c main_v0 _
    refine congrArg (V m c main_v0) (funext fun a => Fin.ext ?_)
    match a with
    | ⟨0, _⟩ =>
      show win0_0.index t (0 : Fin 4) * 1 + 1 * 0 = win0_2.index t (0 : Fin 4) * 1 + 1 * (y 0).val
      have hy0 : (y 0).val < 1 := (y 0).isLt
      omega
    | ⟨1, _⟩ =>
      show win0_0.index t (1 : Fin 4) * 256 + 1 * (2 * (y 1).val + r.val) = 2 * (win0_2.index t (1 : Fin 4) * 128 + 1 * (y 1).val) + r.val
      omega
    | ⟨2, _⟩ =>
      show win0_0.index t (2 : Fin 4) * 32 + 1 * (y 2).val = win0_2.index t (2 : Fin 4) * 32 + 1 * (y 2).val
      omega
    | ⟨3, _⟩ =>
      show win0_0.index t (3 : Fin 4) * 512 + 1 * w.val = w.val
      omega
  · intro w
    show V m c main_v10 (((cfg0.win 1).blk t).view.emb (ix2 w (y 3))) = V m c main_v10 _
    refine congrArg (V m c main_v10) (funext fun a => Fin.ext ?_)
    match a with
    | ⟨0, _⟩ =>
      show win0_1.index t (0 : Fin 2) * 512 + 1 * w.val = w.val
      omega
    | ⟨1, _⟩ =>
      show win0_1.index t (1 : Fin 2) * 256 + 1 * (y 3).val = win0_2.index t (3 : Fin 4) * 256 + 1 * (y 3).val
      omega

/-- An index of the output array is in point `t`'s block iff each coordinate is in the block's range on its axis. -/
theorem mem_blk (t : Fin cfg0.N) (i : S32x256x32x256.Idx) :
    i ∈ ((cfg0.win 2).blk t).view.set ↔ ∀ a : Fin 4, win0_2.index t a * S1x128x32x256.size a ≤ (i a).val ∧ (i a).val < win0_2.index t a * S1x128x32x256.size a + S1x128x32x256.size a := by
  show i ∈ ((View.whole main_v11).slice (win0_2.rect t)).set ↔ _
  rw [View.set_slice_whole, Rect.mem_set_unit]
  exact Iff.rfl

/-- The blocks tile the output array: index (b, i, ch, j) lies in the block of the point at batch b, row-block i / 128. -/
theorem cover (i : S32x256x32x256.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 32 := (i 2).isLt
  have hi3 : (i 3).val < 256 := (i 3).isLt
  obtain ⟨t, ht⟩ := idx_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- THE OUTPUT ARRAY after the run is `G` of the operand arrays as the region finds them. -/
theorem final (c : Dev nD) : (dats m 0 c).arrAt 2 cfg0.N = G (V m c main_v0) (V m c main_v10) :=
  (dats m 0 c).arrAt_eq_of_cover 2 (G (V m c main_v0) (V m c main_v10)) (fun t _ => flushed_eq m c t) cover

end Cert.KernelIdeal.Blocks

end
-- ==== Proof.HostPrefix.lean ====
/-
  What the region finds in its two operand arrays, at the ideal values: the first is the argument with its two last
  axes exchanged; the second is the pairing matrix the host builds from two iotas — the comparison row = column of a
  256 × 256 grid, converted to 1.0 / 0.0, halved, each row then repeated twice (broadcast to [256, 2, 256] and
  reshaped to [512, 256]), so entry (w, j) is [w / 2 = j] · ½.
-/
import proofs.«165401_g9088150799036_feedfinal_321_13_alg».proof.Proof.Gen.KernelIdeal.Frame
import proofs.«165401_g9088150799036_feedfinal_321_13_alg».proof.Proof.Pool
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The comparison bit of two grid coordinates below 256, as a number: 32-bit words of numbers below 2^32 are equal
    exactly when the numbers are, and adding the zero word changes nothing. -/
private theorem eqBit (a b : ℕ) (ha : a < 256) (hb : b < 256) :
    (IntOp.cmpi .eq (IntOp.addi (BitVec.ofNat 32 a) 0#32) (BitVec.ofNat 32 b)).toNat = if a = b then 1 else 0 := by
  unfold IntOp.cmpi IntOp.addi
  simp only [BitVec.add_zero]
  by_cases h : a = b
  · subst h; simp
  · have hne : (BitVec.ofNat 32 a == BitVec.ofNat 32 b) = false := by
      rw [beq_eq_false_iff_ne]
      intro e
      have e' := congrArg BitVec.toNat e
      simp only [BitVec.toNat_ofNat] at e'
      omega
    simp [hne, h]

/-- The region's first operand is the argument transposed: entry (b, h, ch, w) is the argument's (b, h, w, ch). -/
theorem V_main_v0_apply (c : Dev nD) (b : Fin 32) (h : Fin 512) (ch : Fin 32) (w : Fin 512) :
    (V m c main_v0 : S32x512x32x512.Idx → EReal) (ix4 b h ch w)
      = (m ((c : Thread nD τ).loc main_arg0) : S32x512x512x32.Idx → EReal) (ix4 b h w ch) := by
  -- the host line's first operation is the only one that writes this array: a transpose of the argument
  show StableHlo.after hostOps0 (fun b => m (c, b)) (Proc.devRef .tc main_v0) (ix4 b h ch w) = _
  after_results
  -- read at (b, h, ch, w): the permutation [0, 1, 3, 2] sends result axes 2, 3 to source axes 3, 2
  refine (transpose_apply _ _ _ (ix4 b h ch w) (ix4 b h w ch) ?_).trans rfl
  intro a
  match a with
  | ⟨0, _⟩ => rfl
  | ⟨1, _⟩ => rfl
  | ⟨2, _⟩ => rfl
  | ⟨3, _⟩ => rfl

/-- The region's second operand is the pairing matrix. -/
theorem V_main_v10_apply (c : Dev nD) (w : Fin 512) (j : Fin 256) :
    (V m c main_v10 : S512x256.Idx → EReal) (ix2 w j) = Cert.Pool.pairW w j := by
  show StableHlo.after hostOps0 (fun b => m (c, b)) (Proc.devRef .tc main_v10) (ix2 w j) = _
  after_results
  have hw : w.val / 2 < 256 := by omega
  have hr : w.val % 2 < 2 := by omega
  -- the reshape [256, 2, 256] → [512, 256]: row w is (w / 2, w % 2), since (w / 2) · 2 + w % 2 = w
  refine (shapeCast_apply (s := S256x2x256) (t := S512x256) _ shapeCasts_S256x2x256_S512x256 (ix2 w j)
    (ix3 ⟨w.val / 2, hw⟩ ⟨w.val % 2, hr⟩ j) ?_).trans ?_
  · rw [Shape.rowMajor_val_three, Shape.rowMajor_val_two]
    show (w.val / 2 * 2 + w.val % 2) * 256 + j.val = w.val * 256 + j.val
    omega
  -- the broadcast along the new middle axis forgets w % 2
  refine (broadcastInDim_apply (s := S256x256) (t := S256x2x256) _ _ _ _ (ix2 ⟨w.val / 2, hw⟩ j) ?_).trans ?_
  · intro a
    match a with
    | ⟨0, _⟩ => rfl
    | ⟨1, _⟩ => rfl
  -- entry (w / 2, j) of the grid: the comparison bit of the two coordinates, as a real, times one half
  show (((IntOp.cmpi .eq (IntOp.addi (BitVec.ofNat 32 (w.val / 2)) 0#32) (BitVec.ofNat 32 j.val)).toNat : ℝ) : EReal)
      * Cert.Pool.half = _
  rw [eqBit _ _ hw j.isLt]
  unfold Cert.Pool.pairW
  by_cases h : w.val / 2 = j.val
  · simp only [h, if_true, Nat.cast_one, EReal.coe_one]
  · simp only [h, if_false, Nat.cast_zero, EReal.coe_zero]

end Cert.KernelIdeal.Prefix

end
-- ==== Proof.KernelRun.lean ====
/-
  The idealized kernel's run, with its result named. After the region the output array holds, at (b, i, ch, j), the
  sum over the columns w of (xt[b, 2i, ch, w] + xt[b, 2i + 1, ch, w]) · P[w, j]; the one host line after the region
  exchanges the two last axes back. With xt the argument transposed and P the pairing matrix, entry (b, i, j, c) of
  the result is the sum over w of (x[b, 2i, w, c] + x[b, 2i + 1, w, c]) · [w / 2 = j] · ½: the pooled array in the
  kernel's arrangement.
-/
import proofs.«165401_g9088150799036_feedfinal_321_13_alg».proof.Proof.Blocks
import proofs.«165401_g9088150799036_feedfinal_321_13_alg».proof.Proof.HostPrefix
import proofs.«165401_g9088150799036_feedfinal_321_13_alg».proof.Proof.Pool
import Idealize.ShloMosaic.Lib.StableHlo.Run
import Idealize.ShloMosaic.Lib.Pipeline.Value

noncomputable section

namespace Cert.KernelIdeal.Pooled

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The region's output array, as one function of the argument: `G` of the transposed argument and the pairing matrix,
    read back through the exchange of the two last axes, is the pooled array in the kernel's arrangement. -/
theorem G_transposed (c : Dev nD) (i : S32x256x256x32.Idx) :
    Blocks.G (V m c main_v0) (V m c main_v10) (ix4 (i 0) (i 1) (i 3) (i 2))
      = Cert.Pool.kerPool (m ((c : Thread nD τ).loc main_arg0)) i := by
  unfold Blocks.G Cert.Pool.kerPool
  refine Finset.sum_congr rfl fun w _ => ?_
  exact congrArg₂ (· * ·)
    (congrArg₂ (· + ·) (Prefix.V_main_v0_apply m c (i 0) (Cert.Pool.twice (i 1) 0) (i 3) w)
      (Prefix.V_main_v0_apply m c (i 0) (Cert.Pool.twice (i 1) 1) (i 3) w))
    (Prefix.V_main_v10_apply m c w (i 2))

/-- What @main's result buffer holds after the host line that follows the region. -/
theorem result_eq (c : Dev nD) :
    Pipeline.afterTail₀ cfgs (dats m) 0 (V0 m) [hostOps1] c main_v12
      = Cert.Pool.kerPool (m ((c : Thread nD τ).loc main_arg0)) := by
  unfold Pipeline.afterTail₀
  show StableHlo.after hostOps1 _ (Proc.devRef .tc main_v12) = _
  after_results
  have hA : Pipeline.withArrays spec0 c (V0 m c) (fun w => (dats m 0 c).arrAt w cfg0.N) (Proc.devRef .tc main_v11)
      = Blocks.G (V m c main_v0) (V m c main_v10) :=
    (Pipeline.withArrays_arr spec0 launch0.win.arr_inj c _ _ 2).trans (Blocks.final m c)
  rw [hA]
  funext i
  refine (transpose_apply _ _ _ i (ix4 (i 0) (i 1) (i 3) (i 2)) fun b => ?_).trans (G_transposed m c i)
  match b with
  | ⟨0, _⟩ => rfl
  | ⟨1, _⟩ => rfl
  | ⟨2, _⟩ => rfl
  | ⟨3, _⟩ => rfl

/-- THE RUN of the idealized kernel: every weakly fair execution terminates with the result buffer at the pooled
    array in the kernel's arrangement and the argument unchanged. -/
theorem run : θ_run defs (onTc (τ := τ) (main (F := Ideal))) ⟨m, fun _ => 0, ρ⟩ fun r => ∀ c : Dev nD,
      r.2.mem ((c : Thread nD τ).loc main_v12) = Cert.Pool.kerPool (m ((c : Thread nD τ).loc main_arg0))
      ∧ r.2.mem ((c : Thread nD τ).loc main_arg0) = m ((c : Thread nD τ).loc main_arg0) :=
  (θ_run defs _ _).mono (fun r h c =>
      ⟨((h c).2 main_v12 (Pipeline.mem_restRefs_of main_v12 (by decide) (by decide))).trans (result_eq m c),
        ((h c).2 main_arg0 (Pipeline.mem_restRefs_of main_arg0 (by decide) (by decide))).trans (W_main_arg0 m (dats m) c)⟩)
    (run_main m ρ)

end Cert.KernelIdeal.Pooled

end
-- ==== Proof.lean ====
/-
  2 × 2 Haar low-pass pooling of a [32, 512, 512, 32] array (batch, row, column, channel):
      out[b, i, j, c] = ½ · (x[b, 2i, 2j, c] + x[b, 2i, 2j + 1, c] + x[b, 2i + 1, 2j, c] + x[b, 2i + 1, 2j + 1, c]).

  The reference reshapes rows and columns into (pair, position), sums the two position axes into zero and halves.
  The kernel works on the array with its two last axes exchanged: each grid point adds the two rows of every row
  pair, and then contracts the 512 columns against the pairing matrix P[w, j] = [w / 2 = j] · ½, which the host
  builds from two iotas; a last host line exchanges the axes back. Read as extended reals, a column that meets a
  zero entry of P contributes y · 0 = 0, so the contraction leaves s(2j) · ½ + s(2j + 1) · ½ with s the row-pair
  sums; on finite entries this is the reference's (a + b + c + d) · ½ by distributivity over the reals. The
  precondition (every entry finite) is what licenses that step.

  The frames of the two kernel programs are the generated ones; the reference's frame is its generated run with the
  result dropped; the idealization rewrote nothing, so its claim is trivial.
-/
import proofs.«165401_g9088150799036_feedfinal_321_13_alg».proof.Defs
import proofs.«165401_g9088150799036_feedfinal_321_13_alg».proof.Proof.Gen.Kernel
import proofs.«165401_g9088150799036_feedfinal_321_13_alg».proof.Proof.Gen.Kernel.Skeleton
import proofs.«165401_g9088150799036_feedfinal_321_13_alg».proof.Proof.Gen.Kernel.Launch
import proofs.«165401_g9088150799036_feedfinal_321_13_alg».proof.Proof.Gen.Kernel.Points
import proofs.«165401_g9088150799036_feedfinal_321_13_alg».proof.Proof.Gen.Kernel.Frame
import proofs.«165401_g9088150799036_feedfinal_321_13_alg».proof.Proof.Gen.KernelIdeal
import proofs.«165401_g9088150799036_feedfinal_321_13_alg».proof.Proof.Gen.KernelIdeal.Skeleton
import proofs.«165401_g9088150799036_feedfinal_321_13_alg».proof.Proof.Gen.KernelIdeal.Launch
import proofs.«165401_g9088150799036_feedfinal_321_13_alg».proof.Proof.Gen.KernelIdeal.Points
import proofs.«165401_g9088150799036_feedfinal_321_13_alg».proof.Proof.Gen.KernelIdeal.Frame
import proofs.«165401_g9088150799036_feedfinal_321_13_alg».proof.Proof.Gen.ReferenceIdeal
import proofs.«165401_g9088150799036_feedfinal_321_13_alg».proof.Proof.Gen.Pre_finite_inputs
import proofs.«165401_g9088150799036_feedfinal_321_13_alg».proof.Proof.Gen.ReferenceIdeal.Run
import proofs.«165401_g9088150799036_feedfinal_321_13_alg».proof.Proof.Gen.ReferenceIdeal.Read
import proofs.«165401_g9088150799036_feedfinal_321_13_alg».proof.Proof.Pool
import proofs.«165401_g9088150799036_feedfinal_321_13_alg».proof.Proof.Finite
import proofs.«165401_g9088150799036_feedfinal_321_13_alg».proof.Proof.RefPool
import proofs.«165401_g9088150799036_feedfinal_321_13_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its argument as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both idealized programs end with the pooled array in the reference's arrangement: the reference by reading its
    operations one by one, the kernel because its arrangement equals the reference's on finite entries. -/
theorem algebraic : Cert.algebraic_KernelIdeal_ReferenceIdeal := by
  intro m ρ m' ρ' hpre hagree
  refine ⟨fun c => Cert.Pool.refPool (m ((c : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Pooled.run m ρ)
    exact Cert.Pool.kerPool_eq_refPool _ fun k => Cert.Pre_finite_inputs.Finite.entries_real _ (hpre c) k
  · refine (θ_run Cert.ReferenceIdeal.defs _ _).mono (fun r h c => ⟨(h c).1.trans ?_, (h c).2⟩)
      (Cert.ReferenceIdeal.Value.run (F := Ideal) m' ρ')
    exact (Cert.ReferenceIdeal.Read.val_main_v3_eq _).trans
      ((Cert.ReferenceIdeal.RefValue.val_main_v3_eq_refPool _).trans (congrArg Cert.Pool.refPool (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
